-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩
abbrev S128x1024 : Shape := ⟨2, ![128, 1024]⟩
abbrev S128x4096 : Shape := ⟨2, ![128, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S8192x1024, .f32⟩
  | .hbm, ⟨30, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1024x4096, .f32⟩
  | .hbm, ⟨26, _⟩ => ⟨S8192x4096, .f32⟩
  | .hbm, ⟨27, _⟩ => ⟨S8192x4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  bcast_S_S8192x1024 : S_.BroadcastsInDim S8192x1024 (![] : Fin 0 → Fin S8192x1024.rank)
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelFrame.lean ====
/-
  The frame of `Kernel`: its @main is ten host operations (four concatenations of the gate weights and biases, the sum
  of the two bias vectors, its reshape to a row, two transposes and their narrowing to bf16) followed by ONE pipelined
  kernel on a grid of 64 row tiles. None of the host operations writes an argument array, and the kernel's two outputs
  are fresh arrays, so every argument ends as launched.

  The kernel body at a grid point loads the three row tiles (input, previous hidden state, previous cell state), the
  two resident weight matrices and the bias row, and stores the new hidden tile and the new cell tile whole; it also
  loads each output buffer before storing into it, and uses nothing of what it found there. So after the body each
  input buffer holds its block unchanged and each output buffer holds one pure function of the six input blocks
  (`hiddenBlock`, `cellBlock`), whatever it held before.
-/
import proofs.«109546_j38491496907449_1_alg».proof.Proof.Gen.Kernel.Launch
import proofs.«109546_j38491496907449_1_alg».proof.Proof.Gen.Kernel.Skeleton
import proofs.«109546_j38491496907449_1_alg».proof.Proof.Gen.Kernel.Points
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- Core `c`'s buffers when the kernel is entered: the launch contents after the ten host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is its host prefix followed by the kernel's launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host prefix writes: its ten results. -/
abbrev hostWritten : List (Ref sig .tc) :=
  [main_v0, main_v1, main_v2, main_v3, main_v4, main_v5, main_v6, main_v7, main_v8, main_v9]

/-- Each host operation writes its one result buffer, which is in that list. -/
theorem hostOps0_writes : (hostOps0 : List (HloOp τ sig (Elt F))).Forall fun op =>
    op.writes ⊆ (hostWritten.map (Proc.devRef (τ := τ) .tc)).toFinset := by
  simp only [hostOps0, List.Forall, StableHlo.nary_writes, StableHlo.unary_writes, StableHlo.binary_writes,
    StableHlo.reshape_writes, Finset.singleton_subset_iff, List.mem_toFinset]
  repeat' apply And.intro
  all_goals exact List.mem_map.mpr ⟨_, by decide, rfl⟩

/-- The host prefix writes none of the arguments: `main_arg0` is found as launched. -/
theorem V_main_arg0 (c : Dev nD) : V m c main_arg0 = m ((c : Thread nD τ).loc main_arg0) :=
  StableHlo.after_of_writes_sub (W := hostWritten) hostOps0 _ hostOps0_writes (by decide)
/-- The host prefix writes none of the arguments: `main_arg1` is found as launched. -/
theorem V_main_arg1 (c : Dev nD) : V m c main_arg1 = m ((c : Thread nD τ).loc main_arg1) :=
  StableHlo.after_of_writes_sub (W := hostWritten) hostOps0 _ hostOps0_writes (by decide)
/-- The host prefix writes none of the arguments: `main_arg2` is found as launched. -/
theorem V_main_arg2 (c : Dev nD) : V m c main_arg2 = m ((c : Thread nD τ).loc main_arg2) :=
  StableHlo.after_of_writes_sub (W := hostWritten) hostOps0 _ hostOps0_writes (by decide)
/-- The host prefix writes none of the arguments: `main_arg3` is found as launched. -/
theorem V_main_arg3 (c : Dev nD) : V m c main_arg3 = m ((c : Thread nD τ).loc main_arg3) :=
  StableHlo.after_of_writes_sub (W := hostWritten) hostOps0 _ hostOps0_writes (by decide)
/-- The host prefix writes none of the arguments: `main_arg4` is found as launched. -/
theorem V_main_arg4 (c : Dev nD) : V m c main_arg4 = m ((c : Thread nD τ).loc main_arg4) :=
  StableHlo.after_of_writes_sub (W := hostWritten) hostOps0 _ hostOps0_writes (by decide)
/-- The host prefix writes none of the arguments: `main_arg5` is found as launched. -/
theorem V_main_arg5 (c : Dev nD) : V m c main_arg5 = m ((c : Thread nD τ).loc main_arg5) :=
  StableHlo.after_of_writes_sub (W := hostWritten) hostOps0 _ hostOps0_writes (by decide)
/-- The host prefix writes none of the arguments: `main_arg6` is found as launched. -/
theorem V_main_arg6 (c : Dev nD) : V m c main_arg6 = m ((c : Thread nD τ).loc main_arg6) :=
  StableHlo.after_of_writes_sub (W := hostWritten) hostOps0 _ hostOps0_writes (by decide)
/-- The host prefix writes none of the arguments: `main_arg7` is found as launched. -/
theorem V_main_arg7 (c : Dev nD) : V m c main_arg7 = m ((c : Thread nD τ).loc main_arg7) :=
  StableHlo.after_of_writes_sub (W := hostWritten) hostOps0 _ hostOps0_writes (by decide)
/-- The host prefix writes none of the arguments: `main_arg8` is found as launched. -/
theorem V_main_arg8 (c : Dev nD) : V m c main_arg8 = m ((c : Thread nD τ).loc main_arg8) :=
  StableHlo.after_of_writes_sub (W := hostWritten) hostOps0 _ hostOps0_writes (by decide)
/-- The host prefix writes none of the arguments: `main_arg9` is found as launched. -/
theorem V_main_arg9 (c : Dev nD) : V m c main_arg9 = m ((c : Thread nD τ).loc main_arg9) :=
  StableHlo.after_of_writes_sub (W := hostWritten) hostOps0 _ hostOps0_writes (by decide)
/-- The host prefix writes none of the arguments: `main_arg10` is found as launched. -/
theorem V_main_arg10 (c : Dev nD) : V m c main_arg10 = m ((c : Thread nD τ).loc main_arg10) :=
  StableHlo.after_of_writes_sub (W := hostWritten) hostOps0 _ hostOps0_writes (by decide)
/-- The host prefix writes none of the arguments: `main_arg11` is found as launched. -/
theorem V_main_arg11 (c : Dev nD) : V m c main_arg11 = m ((c : Thread nD τ).loc main_arg11) :=
  StableHlo.after_of_writes_sub (W := hostWritten) hostOps0 _ hostOps0_writes (by decide)
/-- The host prefix writes none of the arguments: `main_arg12` is found as launched. -/
theorem V_main_arg12 (c : Dev nD) : V m c main_arg12 = m ((c : Thread nD τ).loc main_arg12) :=
  StableHlo.after_of_writes_sub (W := hostWritten) hostOps0 _ hostOps0_writes (by decide)
/-- The host prefix writes none of the arguments: `main_arg13` is found as launched. -/
theorem V_main_arg13 (c : Dev nD) : V m c main_arg13 = m ((c : Thread nD τ).loc main_arg13) :=
  StableHlo.after_of_writes_sub (W := hostWritten) hostOps0 _ hostOps0_writes (by decide)
/-- The host prefix writes none of the arguments: `main_arg14` is found as launched. -/
theorem V_main_arg14 (c : Dev nD) : V m c main_arg14 = m ((c : Thread nD τ).loc main_arg14) :=
  StableHlo.after_of_writes_sub (W := hostWritten) hostOps0 _ hostOps0_writes (by decide)
/-- The host prefix writes none of the arguments: `main_arg15` is found as launched. -/
theorem V_main_arg15 (c : Dev nD) : V m c main_arg15 = m ((c : Thread nD τ).loc main_arg15) :=
  StableHlo.after_of_writes_sub (W := hostWritten) hostOps0 _ hostOps0_writes (by decide)
/-- The host prefix writes none of the arguments: `main_arg16` is found as launched. -/
theorem V_main_arg16 (c : Dev nD) : V m c main_arg16 = m ((c : Thread nD τ).loc main_arg16) :=
  StableHlo.after_of_writes_sub (W := hostWritten) hostOps0 _ hostOps0_writes (by decide)
/-- The host prefix writes none of the arguments: `main_arg17` is found as launched. -/
theorem V_main_arg17 (c : Dev nD) : V m c main_arg17 = m ((c : Thread nD τ).loc main_arg17) :=
  StableHlo.after_of_writes_sub (W := hostWritten) hostOps0 _ hostOps0_writes (by decide)
/-- The host prefix writes none of the arguments: `main_arg18` is found as launched. -/
theorem V_main_arg18 (c : Dev nD) : V m c main_arg18 = m ((c : Thread nD τ).loc main_arg18) :=
  StableHlo.after_of_writes_sub (W := hostWritten) hostOps0 _ hostOps0_writes (by decide)

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds that block at every point, whether the pipeline fetched it at
    the point (the three row tiles) or only at the first point and kept it since (the weights and the bias row, whose
    block index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's post to the frame claim -/

/-- In any state satisfying the pipeline's post every argument array holds its launch contents: the three staged
    arguments are read off the pipeline's final arrays (an input's array is never written back), the sixteen others off
    the clause for buffers no window stages. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- So a run to the pipeline's post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

/-! ## What the body leaves in the two output buffers -/

/-- The whole row tile, the whole weight matrix, the whole bias row: the three rectangles the body touches. -/
abbrev rX : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The new hidden-state tile: the body's one store into output window 6, over the six input blocks. -/
def hiddenBlock (x0 : Vec F S128x1024 .f32) (x1 : Vec F S128x1024 .f32) (x2 : Vec F S128x1024 .f32) (x3 : Vec F S1024x4096 .bf16) (x4 : Vec F S1024x4096 .bf16) (x5 : Vec F S1x4096 .f32) : Vec F S128x1024 .f32 :=
  View.canon [⟨rX, k0_pay3 (View.ld x0 rX) (View.ld x1 rX) (View.ld x3 rW) (View.ld x4 rW) (View.ld x5 rB) (View.ld x2 rX)⟩]

/-- The new cell-state tile: the body's one store into output window 7. -/
def cellBlock (x0 : Vec F S128x1024 .f32) (x1 : Vec F S128x1024 .f32) (x2 : Vec F S128x1024 .f32) (x3 : Vec F S1024x4096 .bf16) (x4 : Vec F S1024x4096 .bf16) (x5 : Vec F S1x4096 .f32) : Vec F S128x1024 .f32 :=
  View.canon [⟨rX, k0_pay2 (View.ld x0 rX) (View.ld x1 rX) (View.ld x3 rW) (View.ld x4 rW) (View.ld x5 rB) (View.ld x2 rX)⟩]

/-- A single store through the whole-tile rectangle covers the tile. -/
theorem cover_tile (p0 : Vec F S128x1024 .f32) (y : S128x1024.Idx) :
    ∃ pc ∈ ([⟨rX, p0⟩] : List (View.Piece (Elt F) S128x1024 .f32)), y ∈ pc.1.set :=
  View.cover_of_tiled [⟨rX, p0⟩] S128x1024.size (by rfl) y

/-! ## The body's triple -/

set_option maxHeartbeats 2000000 in
/-- On whole staging buffers, the six inputs' at contents `x0 … x5` and the two outputs' at anything, the body runs to
    a state with the inputs' as they were and the outputs' at `hiddenBlock` and `cellBlock` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S128x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5) ∗ owns (c : Thread nD τ) arg8 fullShare (cellBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The pipeline's proof data -/

/-- On core `c`: the arrays as the kernel finds them; after the body at point `t` each input buffer at its block and
    the two output buffers at the body's two results; no scratch, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => cellBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = hiddenBlock (iblk m c 0 t) (iblk m c 1 t) (iblk m c 2 t) (iblk m c 3 t) (iblk m c 4 t) (iblk m c 5 t) := by dsimp only [dats]
theorem after_cell (c : Dev nD) (t : Fin cfg0.N) : (dats m 0 c).after 7 t = cellBlock (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and the
    core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates without a fault, each
    array of the pipeline ending at what the proof data's write-backs compose to and every other buffer as the
    kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `Kernel`, at any float instance: it runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.KernelIdealFrame.lean ====
/-
  The frame of `KernelIdeal`: its @main is ten host operations (four concatenations of the gate weights and biases, the sum
  of the two bias vectors, its reshape to a row, two transposes and their narrowing to bf16) followed by ONE pipelined
  kernel on a grid of 64 row tiles. None of the host operations writes an argument array, and the kernel's two outputs
  are fresh arrays, so every argument ends as launched.

  The kernel body at a grid point loads the three row tiles (input, previous hidden state, previous cell state), the
  two resident weight matrices and the bias row, and stores the new hidden tile and the new cell tile whole; it also
  loads each output buffer before storing into it, and uses nothing of what it found there. So after the body each
  input buffer holds its block unchanged and each output buffer holds one pure function of the six input blocks
  (`hiddenBlock`, `cellBlock`), whatever it held before.
-/
import proofs.«109546_j38491496907449_1_alg».proof.Proof.Gen.KernelIdeal.Launch
import proofs.«109546_j38491496907449_1_alg».proof.Proof.Gen.KernelIdeal.Skeleton
import proofs.«109546_j38491496907449_1_alg».proof.Proof.Gen.KernelIdeal.Points
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- Core `c`'s buffers when the kernel is entered: the launch contents after the ten host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is its host prefix followed by the kernel's launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host prefix writes: its ten results. -/
abbrev hostWritten : List (Ref sig .tc) :=
  [main_v0, main_v1, main_v2, main_v3, main_v4, main_v5, main_v6, main_v7, main_v8, main_v9]

/-- Each host operation writes its one result buffer, which is in that list. -/
theorem hostOps0_writes : (hostOps0 : List (HloOp τ sig (Elt F))).Forall fun op =>
    op.writes ⊆ (hostWritten.map (Proc.devRef (τ := τ) .tc)).toFinset := by
  simp only [hostOps0, List.Forall, StableHlo.nary_writes, StableHlo.unary_writes, StableHlo.binary_writes,
    StableHlo.reshape_writes, Finset.singleton_subset_iff, List.mem_toFinset]
  repeat' apply And.intro
  all_goals exact List.mem_map.mpr ⟨_, by decide, rfl⟩

/-- The host prefix writes none of the arguments: `main_arg0` is found as launched. -/
theorem V_main_arg0 (c : Dev nD) : V m c main_arg0 = m ((c : Thread nD τ).loc main_arg0) :=
  StableHlo.after_of_writes_sub (W := hostWritten) hostOps0 _ hostOps0_writes (by decide)
/-- The host prefix writes none of the arguments: `main_arg1` is found as launched. -/
theorem V_main_arg1 (c : Dev nD) : V m c main_arg1 = m ((c : Thread nD τ).loc main_arg1) :=
  StableHlo.after_of_writes_sub (W := hostWritten) hostOps0 _ hostOps0_writes (by decide)
/-- The host prefix writes none of the arguments: `main_arg2` is found as launched. -/
theorem V_main_arg2 (c : Dev nD) : V m c main_arg2 = m ((c : Thread nD τ).loc main_arg2) :=
  StableHlo.after_of_writes_sub (W := hostWritten) hostOps0 _ hostOps0_writes (by decide)
/-- The host prefix writes none of the arguments: `main_arg3` is found as launched. -/
theorem V_main_arg3 (c : Dev nD) : V m c main_arg3 = m ((c : Thread nD τ).loc main_arg3) :=
  StableHlo.after_of_writes_sub (W := hostWritten) hostOps0 _ hostOps0_writes (by decide)
/-- The host prefix writes none of the arguments: `main_arg4` is found as launched. -/
theorem V_main_arg4 (c : Dev nD) : V m c main_arg4 = m ((c : Thread nD τ).loc main_arg4) :=
  StableHlo.after_of_writes_sub (W := hostWritten) hostOps0 _ hostOps0_writes (by decide)
/-- The host prefix writes none of the arguments: `main_arg5` is found as launched. -/
theorem V_main_arg5 (c : Dev nD) : V m c main_arg5 = m ((c : Thread nD τ).loc main_arg5) :=
  StableHlo.after_of_writes_sub (W := hostWritten) hostOps0 _ hostOps0_writes (by decide)
/-- The host prefix writes none of the arguments: `main_arg6` is found as launched. -/
theorem V_main_arg6 (c : Dev nD) : V m c main_arg6 = m ((c : Thread nD τ).loc main_arg6) :=
  StableHlo.after_of_writes_sub (W := hostWritten) hostOps0 _ hostOps0_writes (by decide)
/-- The host prefix writes none of the arguments: `main_arg7` is found as launched. -/
theorem V_main_arg7 (c : Dev nD) : V m c main_arg7 = m ((c : Thread nD τ).loc main_arg7) :=
  StableHlo.after_of_writes_sub (W := hostWritten) hostOps0 _ hostOps0_writes (by decide)
/-- The host prefix writes none of the arguments: `main_arg8` is found as launched. -/
theorem V_main_arg8 (c : Dev nD) : V m c main_arg8 = m ((c : Thread nD τ).loc main_arg8) :=
  StableHlo.after_of_writes_sub (W := hostWritten) hostOps0 _ hostOps0_writes (by decide)
/-- The host prefix writes none of the arguments: `main_arg9` is found as launched. -/
theorem V_main_arg9 (c : Dev nD) : V m c main_arg9 = m ((c : Thread nD τ).loc main_arg9) :=
  StableHlo.after_of_writes_sub (W := hostWritten) hostOps0 _ hostOps0_writes (by decide)
/-- The host prefix writes none of the arguments: `main_arg10` is found as launched. -/
theorem V_main_arg10 (c : Dev nD) : V m c main_arg10 = m ((c : Thread nD τ).loc main_arg10) :=
  StableHlo.after_of_writes_sub (W := hostWritten) hostOps0 _ hostOps0_writes (by decide)
/-- The host prefix writes none of the arguments: `main_arg11` is found as launched. -/
theorem V_main_arg11 (c : Dev nD) : V m c main_arg11 = m ((c : Thread nD τ).loc main_arg11) :=
  StableHlo.after_of_writes_sub (W := hostWritten) hostOps0 _ hostOps0_writes (by decide)
/-- The host prefix writes none of the arguments: `main_arg12` is found as launched. -/
theorem V_main_arg12 (c : Dev nD) : V m c main_arg12 = m ((c : Thread nD τ).loc main_arg12) :=
  StableHlo.after_of_writes_sub (W := hostWritten) hostOps0 _ hostOps0_writes (by decide)
/-- The host prefix writes none of the arguments: `main_arg13` is found as launched. -/
theorem V_main_arg13 (c : Dev nD) : V m c main_arg13 = m ((c : Thread nD τ).loc main_arg13) :=
  StableHlo.after_of_writes_sub (W := hostWritten) hostOps0 _ hostOps0_writes (by decide)
/-- The host prefix writes none of the arguments: `main_arg14` is found as launched. -/
theorem V_main_arg14 (c : Dev nD) : V m c main_arg14 = m ((c : Thread nD τ).loc main_arg14) :=
  StableHlo.after_of_writes_sub (W := hostWritten) hostOps0 _ hostOps0_writes (by decide)
/-- The host prefix writes none of the arguments: `main_arg15` is found as launched. -/
theorem V_main_arg15 (c : Dev nD) : V m c main_arg15 = m ((c : Thread nD τ).loc main_arg15) :=
  StableHlo.after_of_writes_sub (W := hostWritten) hostOps0 _ hostOps0_writes (by decide)
/-- The host prefix writes none of the arguments: `main_arg16` is found as launched. -/
theorem V_main_arg16 (c : Dev nD) : V m c main_arg16 = m ((c : Thread nD τ).loc main_arg16) :=
  StableHlo.after_of_writes_sub (W := hostWritten) hostOps0 _ hostOps0_writes (by decide)
/-- The host prefix writes none of the arguments: `main_arg17` is found as launched. -/
theorem V_main_arg17 (c : Dev nD) : V m c main_arg17 = m ((c : Thread nD τ).loc main_arg17) :=
  StableHlo.after_of_writes_sub (W := hostWritten) hostOps0 _ hostOps0_writes (by decide)
/-- The host prefix writes none of the arguments: `main_arg18` is found as launched. -/
theorem V_main_arg18 (c : Dev nD) : V m c main_arg18 = m ((c : Thread nD τ).loc main_arg18) :=
  StableHlo.after_of_writes_sub (W := hostWritten) hostOps0 _ hostOps0_writes (by decide)

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds that block at every point, whether the pipeline fetched it at
    the point (the three row tiles) or only at the first point and kept it since (the weights and the bias row, whose
    block index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's post to the frame claim -/

/-- In any state satisfying the pipeline's post every argument array holds its launch contents: the three staged
    arguments are read off the pipeline's final arrays (an input's array is never written back), the sixteen others off
    the clause for buffers no window stages. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- So a run to the pipeline's post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

/-! ## What the body leaves in the two output buffers -/

/-- The whole row tile, the whole weight matrix, the whole bias row: the three rectangles the body touches. -/
abbrev rX : Rect S128x1024 := Rect.unit (s := S128x1024) ![0, 0] S128x1024.size inb_S128x1024_S128x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The new hidden-state tile: the body's one store into output window 6, over the six input blocks. -/
def hiddenBlock (x0 : Vec F S128x1024 .f32) (x1 : Vec F S128x1024 .f32) (x2 : Vec F S128x1024 .f32) (x3 : Vec F S1024x4096 .bf16) (x4 : Vec F S1024x4096 .bf16) (x5 : Vec F S1x4096 .f32) : Vec F S128x1024 .f32 :=
  View.canon [⟨rX, k0_pay3 (View.ld x0 rX) (View.ld x1 rX) (View.ld x3 rW) (View.ld x4 rW) (View.ld x5 rB) (View.ld x2 rX)⟩]

/-- The new cell-state tile: the body's one store into output window 7. -/
def cellBlock (x0 : Vec F S128x1024 .f32) (x1 : Vec F S128x1024 .f32) (x2 : Vec F S128x1024 .f32) (x3 : Vec F S1024x4096 .bf16) (x4 : Vec F S1024x4096 .bf16) (x5 : Vec F S1x4096 .f32) : Vec F S128x1024 .f32 :=
  View.canon [⟨rX, k0_pay2 (View.ld x0 rX) (View.ld x1 rX) (View.ld x3 rW) (View.ld x4 rW) (View.ld x5 rB) (View.ld x2 rX)⟩]

/-- A single store through the whole-tile rectangle covers the tile. -/
theorem cover_tile (p0 : Vec F S128x1024 .f32) (y : S128x1024.Idx) :
    ∃ pc ∈ ([⟨rX, p0⟩] : List (View.Piece (Elt F) S128x1024 .f32)), y ∈ pc.1.set :=
  View.cover_of_tiled [⟨rX, p0⟩] S128x1024.size (by rfl) y

/-! ## The body's triple -/

set_option maxHeartbeats 2000000 in
/-- On whole staging buffers, the six inputs' at contents `x0 … x5` and the two outputs' at anything, the body runs to
    a state with the inputs' as they were and the outputs' at `hiddenBlock` and `cellBlock` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S128x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5) ∗ owns (c : Thread nD τ) arg8 fullShare (cellBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The pipeline's proof data -/

/-- On core `c`: the arrays as the kernel finds them; after the body at point `t` each input buffer at its block and
    the two output buffers at the body's two results; no scratch, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => cellBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = hiddenBlock (iblk m c 0 t) (iblk m c 1 t) (iblk m c 2 t) (iblk m c 3 t) (iblk m c 4 t) (iblk m c 5 t) := by dsimp only [dats]
theorem after_cell (c : Dev nD) (t : Fin cfg0.N) : (dats m 0 c).after 7 t = cellBlock (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation -/

/-- What the pipeline hands the body at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and the
    core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates without a fault, each
    array of the pipeline ending at what the proof data's write-backs compose to and every other buffer as the
    kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `KernelIdeal`, at any float instance: it runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.LstmSpec.lean ====
/-
  The LSTM cell step as a function on the extended reals.

  One batch row `x` (1024 inputs) and the row `a` of the previous hidden state meet the fused, transposed weights
  `wT, uT : [1024, 4096]` and the fused bias `b : [4096]`; the 4096 columns are the four gates, 1024 columns each, in
  the order forget, input, output, candidate. For column `q`

      pre q = (∑ₖ x k · wT (k, q) + ∑ₖ a k · uT (k, q)) + b q ,

  and for hidden unit `j`, with `σ` the logistic function and `c` the previous cell entry,

      c' j = σ (pre (j)) · c + σ (pre (1024 + j)) · tanh (pre (3072 + j)) ,
      a' j = σ (pre (2048 + j)) · tanh (c' j) .

  Both programs compute exactly this grouping of sums and products, so no law of arithmetic is needed to join
  them, only that the logistic function is `1 / (1 + e^(-x))` on every extended real and that the float word
  `0x3F800000` is the real number one.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- The fused, transposed weights: 1024 contraction rows by 4096 gate columns. -/
abbrev Weights := (⟨2, ![1024, 4096]⟩ : Shape).Idx → EReal
/-- A batch-by-hidden array: 8192 rows of 1024 entries. -/
abbrev Rows := (⟨2, ![8192, 1024]⟩ : Shape).Idx → EReal
/-- The fused bias: 4096 gate columns. -/
abbrev Bias := (⟨1, ![4096]⟩ : Shape).Idx → EReal

/-- Column `j` of gate `g` among the 4 · 1024 fused gate columns. -/
def gateCol (g : Fin 4) (j : Fin 1024) : Fin 4096 :=
  ⟨g.val * 1024 + j.val, by have := g.isLt; have := j.isLt; omega⟩

/-- The pre-activation of gate column `q` for one batch row. -/
def gatePre (xr ar : Fin 1024 → EReal) (wT uT : Weights) (b : Fin 4096 → EReal) (q : Fin 4096) : EReal :=
  (∑ k : Fin 1024, xr k * wT (ix2 k q) + ∑ k : Fin 1024, ar k * uT (ix2 k q)) + b q

/-- The new cell entry of hidden unit `j`: forget gate times the old entry plus input gate times candidate. -/
def cellNew (xr ar : Fin 1024 → EReal) (wT uT : Weights) (b : Fin 4096 → EReal) (cp : EReal) (j : Fin 1024) : EReal :=
  Ideal.logistic (gatePre xr ar wT uT b (gateCol 0 j)) * cp
    + Ideal.logistic (gatePre xr ar wT uT b (gateCol 1 j)) * Ideal.tanh (gatePre xr ar wT uT b (gateCol 3 j))

/-- The new hidden entry of unit `j`: output gate times tanh of the new cell entry. -/
def hiddenNew (xr ar : Fin 1024 → EReal) (wT uT : Weights) (b : Fin 4096 → EReal) (cp : EReal) (j : Fin 1024) : EReal :=
  Ideal.logistic (gatePre xr ar wT uT b (gateCol 2 j)) * Ideal.tanh (cellNew xr ar wT uT b cp j)

/-- The new cell state of the whole batch. -/
def cellArr (X A C : Rows) (WT UT : Weights) (B : Bias) : Rows := fun i =>
  cellNew (fun k => X (ix2 (⟨(i 0).val, idx2_lt0 i⟩ : Fin 8192) k)) (fun k => A (ix2 (⟨(i 0).val, idx2_lt0 i⟩ : Fin 8192) k))
    WT UT (fun q => B (ix1 q)) (C i) ⟨(i 1).val, idx2_lt1 i⟩

/-- The new hidden state of the whole batch. -/
def hiddenArr (X A C : Rows) (WT UT : Weights) (B : Bias) : Rows := fun i =>
  hiddenNew (fun k => X (ix2 (⟨(i 0).val, idx2_lt0 i⟩ : Fin 8192) k)) (fun k => A (ix2 (⟨(i 0).val, idx2_lt0 i⟩ : Fin 8192) k))
    WT UT (fun q => B (ix1 q)) (C i) ⟨(i 1).val, idx2_lt1 i⟩

theorem cellArr_ix2 (X A C : Rows) (WT UT : Weights) (B : Bias) (r : Fin 8192) (j : Fin 1024) :
    cellArr X A C WT UT B (ix2 r j)
      = cellNew (fun k => X (ix2 r k)) (fun k => A (ix2 r k)) WT UT (fun q => B (ix1 q)) (C (ix2 r j)) j := rfl

theorem hiddenArr_ix2 (X A C : Rows) (WT UT : Weights) (B : Bias) (r : Fin 8192) (j : Fin 1024) :
    hiddenArr X A C WT UT B (ix2 r j)
      = hiddenNew (fun k => X (ix2 r k)) (fun k => A (ix2 r k)) WT UT (fun q => B (ix1 q)) (C (ix2 r j)) j := rfl

/-- The float word `0x3F800000` is the real number one. -/
theorem one_f32 : Ideal.ofBits .f32 0x3F800000#32 = 1 := by
  simp [Ideal.ofBits, Ideal.ieee, -EReal.coe_mul]; norm_num

/-- `1 / (1 + e^(-x))` with both ones spelt as that float word is the logistic function, on every extended real. -/
theorem logistic_expanded (x : EReal) :
    Ideal.div (Ideal.ofBits .f32 0x3F800000#32) (Ideal.ofBits .f32 0x3F800000#32 + Ideal.exp (-x)) = Ideal.logistic x := by
  rw [one_f32]; rfl

end Cert.Lstm

end
-- ==== Proof.KernelPayload.lean ====
/-
  The kernel body's three pure values on one row tile, read at an index.

  A tile is 128 batch rows. The body narrows the input tile and the previous-hidden tile to bf16 (the identity on
  extended reals), multiplies each by its resident fused weight matrix into a zero accumulator (a plain sum over the
  1024 contraction positions), adds the two products and the bias row broadcast down the tile, then cuts the four
  gates out of the 4096 columns and forms the new cell and hidden tiles. At row `p` of the tile and hidden unit `j`
  these are the specification's per-row terms of that row.
-/
import proofs.«109546_j38491496907449_1_alg».proof.Proof.Gen.KernelIdeal.Skeleton
import proofs.«109546_j38491496907449_1_alg».proof.Proof.LstmSpec
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen Cert.Lstm
open Idealize.ShloMosaic Idealize.ShloMosaic.ValueIdx

/-! ## The matrix product of a row tile with a fused weight matrix -/

theorem lhs_axis0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_axis1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_axis0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_axis1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- Into a zero accumulator the product at row `p`, column `q` is the sum over the contraction position `k` of the
    tile's entry `(p, k)` times the weights' entry `(k, q)`. -/
theorem matmul_at (l : FVec Ideal S128x1024 .bf16) (w : FVec Ideal S1024x4096 .bf16) (p : Fin 128) (q : Fin 4096) :
    matmul (F := Ideal) dot_S128x1024_S1024x4096_S128x4096_1_0_0_1_n_n none l w (constant (F := Ideal) S128x4096 .f32 0x00000000#32) (ix2 p q)
      = ∑ k : Fin 1024, l (ix2 p k) * w (ix2 k q) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p q) ((ValueIdx.contrEquiv1 dot_S128x1024_S1024x4096_S128x4096_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S128x1024_S1024x4096_S128x4096_1_0_0_1_n_n.rhsIdx (ix2 p q) ((ValueIdx.contrEquiv1 dot_S128x1024_S1024x4096_S128x4096_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## The gates' column slices and the bias row -/

/-- The 1024 columns of gate `g`, cut out of the 4096 at offset `g · 1024`: entry `(p, j)` is entry `(p, g · 1024 + j)`. -/
theorem slice_at (off : Nat) (g : Fin 4) (hg : off = g.val * 1024) (y : S128x4096.Idx → EReal)
    (h : S128x4096.Slices ![0, off] S128x1024) (p : Fin 128) (j : Fin 1024) :
    extractStridedSlice S128x1024 ![0, off] y h (ix2 p j) = y (ix2 p (gateCol g j)) :=
  extractStridedSlice_apply ![0, off] y h (ix2 p j) (ix2 p (gateCol g j)) (fun a => match a with
    | ⟨0, _⟩ => by show p.val = 0 + p.val; omega
    | ⟨1, _⟩ => by show g.val * 1024 + j.val = off + j.val; omega)

/-- The bias row broadcast down the tile: entry `(p, q)` is the row's entry `(0, q)`. -/
theorem bias_at (b : S1x4096.Idx → EReal) (h : S1x4096.Broadcasts S128x4096) (p : Fin 128) (q : Fin 4096) :
    broadcastTo S128x4096 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (4096 : Nat) = 1 then 0 else q.val; rw [if_neg (by decide)])

/-! ## The three payloads -/

variable (v0 v2 v23 : Vec Ideal S128x1024 .f32) (v4 v7 : Vec Ideal S1024x4096 .bf16) (v11 : Vec Ideal S1x4096 .f32)

/-- The gate pre-activations of the tile. -/
theorem pre_tile (p : Fin 128) (q : Fin 4096) :
    k0_pay1 (F := Ideal) v0 v2 v4 v7 v11 (ix2 p q) = gatePre (fun k => v0 (ix2 p k)) (fun k => v2 (ix2 p k)) v4 v7 (fun q => v11 (ix2 0 q)) q := by
  unfold k0_pay1
  simp only [addf, shapeCast_self, Ideal.addf_def]
  rw [matmul_at, matmul_at, bias_at]
  rfl

/-- The new cell tile. -/
theorem cell_tile (p : Fin 128) (j : Fin 1024) :
    k0_pay2 (F := Ideal) v0 v2 v4 v7 v11 v23 (ix2 p j) = cellNew (fun k => v0 (ix2 p k)) (fun k => v2 (ix2 p k)) v4 v7 (fun q => v11 (ix2 0 q)) (v23 (ix2 p j)) j := by
  unfold k0_pay2
  simp only [addf, mulf, logistic, tanh, Ideal.addf_def, Ideal.mulf_def, Ideal.logistic_def, Ideal.tanh_def]
  rw [slice_at 0 0 rfl, slice_at 1024 1 rfl, slice_at 3072 3 rfl, pre_tile, pre_tile, pre_tile]
  rfl

/-- The new hidden tile. -/
theorem hidden_tile (p : Fin 128) (j : Fin 1024) :
    k0_pay3 (F := Ideal) v0 v2 v4 v7 v11 v23 (ix2 p j) = hiddenNew (fun k => v0 (ix2 p k)) (fun k => v2 (ix2 p k)) v4 v7 (fun q => v11 (ix2 0 q)) (v23 (ix2 p j)) j := by
  unfold k0_pay3
  simp only [mulf, logistic, tanh, Ideal.mulf_def, Ideal.logistic_def, Ideal.tanh_def]
  rw [slice_at 2048 2 rfl, pre_tile, cell_tile]
  rfl

end Cert.KernelIdeal.TileValue

end
-- ==== Proof.KernelValue.lean ====
/-
  The kernel's two result arrays as the LSTM step of the specification.

  The host prefix of @main leaves three arrays for the kernel: the fused input weights transposed (`wT`), the fused
  recurrent weights transposed (`uT`), each narrowed to bf16 (the identity here), and the sum of the two fused bias
  vectors as a one-row matrix. The kernel's grid has 64 points; point `t` works on batch rows `128 t … 128 t + 127`:
  its three row-tile windows are those rows of the input, the previous hidden state and the previous cell state, the
  weight and bias windows are the whole arrays at every point, and it writes back rows `128 t …` of the two results.
  By the tile-level value the tile written back at point `t` is rows `128 t …` of the specification's arrays, and the 64
  tiles cover all 8192 rows, so the arrays after the run are the specification's.
-/
import proofs.«109546_j38491496907449_1_alg».proof.Proof.KernelIdealFrame
import proofs.«109546_j38491496907449_1_alg».proof.Proof.KernelPayload
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.Frame Cert.KernelIdeal.TileValue Cert.Lstm
open Idealize.ShloMosaic Idealize.ShloMosaic.TcCoe Idealize.ShloMosaic.ValueIdx Idealize.ShloMosaic.StableHlo
open Idealize.SL Idealize.SL.Sem
open Idealize.ShloMosaic.Pipeline (Dat)

/-! ## A tile of the specification from blocks of its arrays -/

section Tiles

variable {X A C : Rows} {WT UT : Weights} {B : Bias}
  (x0 x1 x2 : Vec Ideal S128x1024 .f32) (w u : Vec Ideal S1024x4096 .bf16) (bv : Vec Ideal S1x4096 .f32) (row : Fin 128 → Fin 8192)
  (hx : ∀ p k, x0 (ix2 p k) = X (ix2 (row p) k)) (ha : ∀ p k, x1 (ix2 p k) = A (ix2 (row p) k))
  (hc : ∀ p j, x2 (ix2 p j) = C (ix2 (row p) j))
  (hw : (w : Weights) = WT) (hu : (u : Weights) = UT) (hb : ∀ q, bv (ix2 0 q) = B (ix1 q))

include hx ha hc hw hu hb

/-- If the three row tiles are rows `row p` of the arrays and the weight and bias blocks are the arrays themselves, the
    body's cell payload at `(p, j)` is the specification's new cell state at `(row p, j)`. -/
theorem cell_of_blocks (p : Fin 128) (j : Fin 1024) :
    k0_pay2 (F := Ideal) x0 x1 w u bv x2 (ix2 p j) = cellArr X A C WT UT B (ix2 (row p) j) := by
  rw [cell_tile, cellArr_ix2]
  simp only [hx, ha, hc, hb]
  rw [hw, hu]

/-- The same for the hidden payload. -/
theorem hidden_of_blocks (p : Fin 128) (j : Fin 1024) :
    k0_pay3 (F := Ideal) x0 x1 w u bv x2 (ix2 p j) = hiddenArr X A C WT UT B (ix2 (row p) j) := by
  rw [hidden_tile, hiddenArr_ix2]
  simp only [hx, ha, hc, hb]
  rw [hw, hu]

end Tiles

variable (m : (ℓ : Loc nD τ sig) → Buf (Elt Ideal) ℓ) (ρ : Dev nD → PrngReg)

/-! ## The three arrays the host prefix leaves for the kernel -/

/-- The four input weight matrices stacked and transposed: 1024 contraction rows by 4096 gate columns. -/
def wT (c : Dev nD) : Weights :=
  transpose S1024x4096 [1, 0] (concatenate S4096x1024 0 [⟨S1024x1024, (m ((c : Thread nD τ).loc main_arg3))⟩, ⟨S1024x1024, (m ((c : Thread nD τ).loc main_arg7))⟩, ⟨S1024x1024, (m ((c : Thread nD τ).loc main_arg11))⟩, ⟨S1024x1024, (m ((c : Thread nD τ).loc main_arg15))⟩] concatenates_S1024x1024_S1024x1024_S1024x1024_S1024x1024_S4096x1024_d0) transposes_S4096x1024_S1024x4096_1_0
/-- The four recurrent weight matrices stacked and transposed. -/
def uT (c : Dev nD) : Weights :=
  transpose S1024x4096 [1, 0] (concatenate S4096x1024 0 [⟨S1024x1024, (m ((c : Thread nD τ).loc main_arg5))⟩, ⟨S1024x1024, (m ((c : Thread nD τ).loc main_arg9))⟩, ⟨S1024x1024, (m ((c : Thread nD τ).loc main_arg13))⟩, ⟨S1024x1024, (m ((c : Thread nD τ).loc main_arg17))⟩] concatenates_S1024x1024_S1024x1024_S1024x1024_S1024x1024_S4096x1024_d0) transposes_S4096x1024_S1024x4096_1_0
/-- The sum of the stacked input biases and the stacked recurrent biases. -/
def bias (c : Dev nD) : Bias :=
  addf (F := Ideal) (φ := .f32) (s := S4096) (concatenate S4096 0 [⟨S1024, (m ((c : Thread nD τ).loc main_arg4))⟩, ⟨S1024, (m ((c : Thread nD τ).loc main_arg8))⟩, ⟨S1024, (m ((c : Thread nD τ).loc main_arg12))⟩, ⟨S1024, (m ((c : Thread nD τ).loc main_arg16))⟩] concatenates_S1024_S1024_S1024_S1024_S4096_d0) (concatenate S4096 0 [⟨S1024, (m ((c : Thread nD τ).loc main_arg6))⟩, ⟨S1024, (m ((c : Thread nD τ).loc main_arg10))⟩, ⟨S1024, (m ((c : Thread nD τ).loc main_arg14))⟩, ⟨S1024, (m ((c : Thread nD τ).loc main_arg18))⟩] concatenates_S1024_S1024_S1024_S1024_S4096_d0)

theorem V_wT (c : Dev nD) : (V m c main_v7 : S1024x4096.Idx → EReal) = wT m c := by
  dsimp only [V, hostOps0]; after_results; rfl
theorem V_uT (c : Dev nD) : (V m c main_v9 : S1024x4096.Idx → EReal) = uT m c := by
  dsimp only [V, hostOps0]; after_results; rfl
theorem V_bias (c : Dev nD) : (V m c main_v5 : S1x4096.Idx → EReal) = shapeCast S1x4096 (bias m c) shapeCasts_S4096_S1x4096 := by
  dsimp only [V, hostOps0]; after_results; rfl

/-! ## The windows' blocks, read off their arrays -/

theorem hz : (![0, 0] : Fin 2 → Nat) = fun _ => 0 := funext fun a => by fin_cases a <;> rfl

/-- The printed index maps over the grid: the five row-tile windows sit at block `(t, 0)`, the three resident ones at
    block `(0, 0)`. -/
theorem idx_facts : ∀ t : Fin cfg0.N,
    (win0_0.index t (0 : Fin 2) = t.val ∧ win0_1.index t (0 : Fin 2) = t.val ∧ win0_2.index t (0 : Fin 2) = t.val
      ∧ win0_6.index t (0 : Fin 2) = t.val ∧ win0_7.index t (0 : Fin 2) = t.val)
    ∧ (win0_0.index t (1 : Fin 2) = 0 ∧ win0_1.index t (1 : Fin 2) = 0 ∧ win0_2.index t (1 : Fin 2) = 0
      ∧ win0_6.index t (1 : Fin 2) = 0 ∧ win0_7.index t (1 : Fin 2) = 0)
    ∧ (win0_3.index t (0 : Fin 2) = 0 ∧ win0_3.index t (1 : Fin 2) = 0 ∧ win0_4.index t (0 : Fin 2) = 0
      ∧ win0_4.index t (1 : Fin 2) = 0 ∧ win0_5.index t (0 : Fin 2) = 0 ∧ win0_5.index t (1 : Fin 2) = 0) :=
  (by decide +kernel : ∀ t : Fin grid0.N, _)

theorem N_eq : cfg0.N = 64 := N_0

/-- Row `p` of the tile of grid point `t` is batch row `128 t + p`. -/
def tileRow (t : Fin cfg0.N) (p : Fin 128) : Fin 8192 :=
  ⟨128 * t.val + p.val, by have h : t.val < 64 := lt_of_lt_of_eq t.isLt N_eq; have := p.isLt; omega⟩

/-- The input tile at point `t` is rows `128 t …` of the input array, found as launched. -/
theorem xblock (c : Dev nD) (t : Fin cfg0.N) (p : Fin 128) (k : Fin 1024) :
    (iblk m c 0 t : S128x1024.Idx → EReal) (ix2 p k) = (m ((c : Thread nD τ).loc main_arg0) : S8192x1024.Idx → EReal) (ix2 (tileRow t p) k) := by
  obtain ⟨⟨e0, e1, e2, -, -⟩, ⟨f0, f1, f2, -, -⟩, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 1024 + 1 * k.val = k.val; omega
/-- Row `p` of the previous-hidden tile is batch row `128 t + p` of the previous hidden state. -/
theorem ablock (c : Dev nD) (t : Fin cfg0.N) (p : Fin 128) (k : Fin 1024) :
    (iblk m c 1 t : S128x1024.Idx → EReal) (ix2 p k) = (m ((c : Thread nD τ).loc main_arg1) : S8192x1024.Idx → EReal) (ix2 (tileRow t p) k) := by
  obtain ⟨⟨e0, e1, e2, -, -⟩, ⟨f0, f1, f2, -, -⟩, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 128 + 1 * p.val = 128 * t.val + p.val; omega
  | ⟨1, _⟩ => show win0_1.index t (1 : Fin 2) * 1024 + 1 * k.val = k.val; omega
/-- Row `p` of the previous-cell tile is batch row `128 t + p` of the previous cell state. -/
theorem cblock (c : Dev nD) (t : Fin cfg0.N) (p : Fin 128) (k : Fin 1024) :
    (iblk m c 2 t : S128x1024.Idx → EReal) (ix2 p k) = (m ((c : Thread nD τ).loc main_arg2) : S8192x1024.Idx → EReal) (ix2 (tileRow t p) k) := by
  obtain ⟨⟨e0, e1, e2, -, -⟩, ⟨f0, f1, f2, -, -⟩, -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 1024 + 1 * k.val = k.val; omega

/-- The input-weight window is the whole fused transposed input-weight array at every point. -/
theorem wblock (c : Dev nD) (t : Fin cfg0.N) : (iblk m c 3 t : S1024x4096.Idx → EReal) = wT m c := by
  obtain ⟨-, -, ⟨g30, g31, g40, g41, g50, g51⟩⟩ := idx_facts t
  funext y
  show V m c main_v7 (((cfg0.win 3).blk t).view.emb y) = _
  refine (congrArg _ (funext fun a => Fin.ext ?_)).trans (congrFun (V_wT m c) y)
  match a with
  | ⟨0, _⟩ => show win0_3.index t (0 : Fin 2) * 1024 + 1 * (y 0).val = (y 0).val; omega
  | ⟨1, _⟩ => show win0_3.index t (1 : Fin 2) * 4096 + 1 * (y 1).val = (y 1).val; omega
/-- The recurrent-weight window is the whole fused transposed recurrent-weight array at every point. -/
theorem ublock (c : Dev nD) (t : Fin cfg0.N) : (iblk m c 4 t : S1024x4096.Idx → EReal) = uT m c := by
  obtain ⟨-, -, ⟨g30, g31, g40, g41, g50, g51⟩⟩ := idx_facts t
  funext y
  show V m c main_v9 (((cfg0.win 4).blk t).view.emb y) = _
  refine (congrArg _ (funext fun a => Fin.ext ?_)).trans (congrFun (V_uT m c) y)
  match a with
  | ⟨0, _⟩ => show win0_4.index t (0 : Fin 2) * 1024 + 1 * (y 0).val = (y 0).val; omega
  | ⟨1, _⟩ => show win0_4.index t (1 : Fin 2) * 4096 + 1 * (y 1).val = (y 1).val; omega

/-- The bias window is the one-row bias array at every point: its entry `(0, q)` is entry `q` of the summed bias. -/
theorem bblock (c : Dev nD) (t : Fin cfg0.N) (q : Fin 4096) :
    (iblk m c 5 t : S1x4096.Idx → EReal) (ix2 0 q) = bias m c (ix1 q) := by
  obtain ⟨-, -, ⟨g30, g31, g40, g41, g50, g51⟩⟩ := idx_facts t
  show V m c main_v5 (((cfg0.win 5).blk t).view.emb (ix2 0 q)) = _
  have hemb : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 4096 + 1 * q.val = q.val; omega)
  rw [hemb]
  refine (congrFun (V_bias m c) (ix2 0 q)).trans ?_
  refine (shapeCast_addUnit_apply ![4096] (bias m c) shapeCasts_S4096_S1x4096 (ix2 0 q)).trans (congrArg _ (funext fun a => ?_))
  match a with
  | ⟨0, _⟩ => rfl

/-! ## What each grid point writes back -/

/-- What grid point `t` writes back into the second result: rows `128 t …` of the specification's cell state. -/
theorem flushed_cell (c : Dev nD) (t : Fin cfg0.N) :
    (dats m 0 c).flushed 7 t = ((cfg0.win 7).blk t).view.read (Elt Ideal) (cellArr (m ((c : Thread nD τ).loc main_arg0)) (m ((c : Thread nD τ).loc main_arg1)) (m ((c : Thread nD τ).loc main_arg2)) (wT m c) (uT m c) (bias m c)) := by
  obtain ⟨⟨-, -, -, e6, e7⟩, ⟨-, -, -, f6, f7⟩, -⟩ := idx_facts t
  show (cfg0.win 7).cut (grid0.coords t) ((dats m 0 c).after 7 t) = _
  rw [after_cell]
  unfold cellBlock
  rw [View.canon_unit_zero hz]
  simp only [View.ld_unit_zero (S := S128x1024) hz, View.ld_unit_zero (S := S1024x4096) hz, View.ld_unit_zero (S := S1x4096) hz]
  funext y
  obtain ⟨p, j, rfl⟩ : ∃ (p : Fin 128) (j : Fin 1024), y = ix2 p j := ⟨y 0, y 1, eq_ix2 y⟩
  have hemb : ((cfg0.win 7).blk t).view.emb (ix2 p j) = ix2 (tileRow t p) j := funext fun a => Fin.ext (by
    match a with
    | ⟨0, _⟩ => show win0_7.index t (0 : Fin 2) * 128 + 1 * p.val = 128 * t.val + p.val; omega
    | ⟨1, _⟩ => show win0_7.index t (1 : Fin 2) * 1024 + 1 * j.val = j.val; omega)
  show k0_pay2 (F := Ideal) (iblk m c 0 t) (iblk m c 1 t) (iblk m c 3 t) (iblk m c 4 t) (iblk m c 5 t) (iblk m c 2 t) (ix2 p j)
      = (cellArr (m ((c : Thread nD τ).loc main_arg0)) (m ((c : Thread nD τ).loc main_arg1)) (m ((c : Thread nD τ).loc main_arg2)) (wT m c) (uT m c) (bias m c)) (((cfg0.win 7).blk t).view.emb (ix2 p j))
  rw [hemb]
  exact cell_of_blocks (iblk m c 0 t) (iblk m c 1 t) (iblk m c 2 t) (iblk m c 3 t) (iblk m c 4 t) (iblk m c 5 t) (tileRow t)
    (xblock m c t) (ablock m c t) (cblock m c t) (wblock m c t) (ublock m c t) (bblock m c t) p j

/-- What grid point `t` writes back into the first result: rows `128 t …` of the specification's hidden state. -/
theorem flushed_hidden (c : Dev nD) (t : Fin cfg0.N) :
    (dats m 0 c).flushed 6 t = ((cfg0.win 6).blk t).view.read (Elt Ideal) (hiddenArr (m ((c : Thread nD τ).loc main_arg0)) (m ((c : Thread nD τ).loc main_arg1)) (m ((c : Thread nD τ).loc main_arg2)) (wT m c) (uT m c) (bias m c)) := by
  obtain ⟨⟨-, -, -, e6, e7⟩, ⟨-, -, -, f6, f7⟩, -⟩ := idx_facts t
  show (cfg0.win 6).cut (grid0.coords t) ((dats m 0 c).after 6 t) = _
  rw [after_hidden]
  unfold hiddenBlock
  rw [View.canon_unit_zero hz]
  simp only [View.ld_unit_zero (S := S128x1024) hz, View.ld_unit_zero (S := S1024x4096) hz, View.ld_unit_zero (S := S1x4096) hz]
  funext y
  obtain ⟨p, j, rfl⟩ : ∃ (p : Fin 128) (j : Fin 1024), y = ix2 p j := ⟨y 0, y 1, eq_ix2 y⟩
  have hemb : ((cfg0.win 6).blk t).view.emb (ix2 p j) = ix2 (tileRow t p) j := funext fun a => Fin.ext (by
    match a with
    | ⟨0, _⟩ => show win0_6.index t (0 : Fin 2) * 128 + 1 * p.val = 128 * t.val + p.val; omega
    | ⟨1, _⟩ => show win0_6.index t (1 : Fin 2) * 1024 + 1 * j.val = j.val; omega)
  show k0_pay3 (F := Ideal) (iblk m c 0 t) (iblk m c 1 t) (iblk m c 3 t) (iblk m c 4 t) (iblk m c 5 t) (iblk m c 2 t) (ix2 p j)
      = (hiddenArr (m ((c : Thread nD τ).loc main_arg0)) (m ((c : Thread nD τ).loc main_arg1)) (m ((c : Thread nD τ).loc main_arg2)) (wT m c) (uT m c) (bias m c)) (((cfg0.win 6).blk t).view.emb (ix2 p j))
  rw [hemb]
  exact hidden_of_blocks (iblk m c 0 t) (iblk m c 1 t) (iblk m c 2 t) (iblk m c 3 t) (iblk m c 4 t) (iblk m c 5 t) (tileRow t)
    (xblock m c t) (ablock m c t) (cblock m c t) (wblock m c t) (ublock m c t) (bblock m c t) p j

/-! ## The 64 tiles cover the 8192 rows -/

theorem mem_blk6 (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v10_0).slice (win0_6.rect t)).set ↔ _
  rw [View.set_slice_whole, Rect.mem_set_unit]
  exact Iff.rfl

/-- Every entry of the result lies in the tile of grid point `row / 128`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  let t : Fin cfg0.N := ⟨(i 0).val / 128, lt_of_lt_of_eq (by omega : (i 0).val / 128 < 64) N_eq.symm⟩
  obtain ⟨⟨-, -, -, e6, e7⟩, ⟨-, -, -, f6, f7⟩, -⟩ := idx_facts t
  have ht : t.val = (i 0).val / 128 := rfl
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

theorem mem_blk7 (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v10_1).slice (win0_7.rect t)).set ↔ _
  rw [View.set_slice_whole, Rect.mem_set_unit]
  exact Iff.rfl

/-- Every entry of the result lies in the tile of grid point `row / 128`. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  let t : Fin cfg0.N := ⟨(i 0).val / 128, lt_of_lt_of_eq (by omega : (i 0).val / 128 < 64) N_eq.symm⟩
  obtain ⟨⟨-, -, -, e6, e7⟩, ⟨-, -, -, f6, f7⟩, -⟩ := idx_facts t
  have ht : t.val = (i 0).val / 128 := rfl
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-! ## The arrays after the run, and the run -/

theorem final_hidden (c : Dev nD) : (dats m 0 c).arrAt 6 cfg0.N = (hiddenArr (m ((c : Thread nD τ).loc main_arg0)) (m ((c : Thread nD τ).loc main_arg1)) (m ((c : Thread nD τ).loc main_arg2)) (wT m c) (uT m c) (bias m c)) :=
  (dats m 0 c).arrAt_eq_of_cover 6 (hiddenArr (m ((c : Thread nD τ).loc main_arg0)) (m ((c : Thread nD τ).loc main_arg1)) (m ((c : Thread nD τ).loc main_arg2)) (wT m c) (uT m c) (bias m c)) (fun t _ => flushed_hidden m c t) cover6

theorem final_cell (c : Dev nD) : (dats m 0 c).arrAt 7 cfg0.N = (cellArr (m ((c : Thread nD τ).loc main_arg0)) (m ((c : Thread nD τ).loc main_arg1)) (m ((c : Thread nD τ).loc main_arg2)) (wT m c) (uT m c) (bias m c)) :=
  (dats m 0 c).arrAt_eq_of_cover 7 (cellArr (m ((c : Thread nD τ).loc main_arg0)) (m ((c : Thread nD τ).loc main_arg1)) (m ((c : Thread nD τ).loc main_arg2)) (wT m c) (uT m c) (bias m c)) (fun t _ => flushed_cell m c t) cover7

/-- Every weakly fair execution of the idealized kernel program terminates without a fault with the first result at the
    specification's new hidden state, the second at its new cell state, and every argument as launched. -/
theorem run : θ_run defs (onTc (τ := τ) (main (F := Ideal))) ⟨m, fun _ => 0, ρ⟩ fun r => ∀ c : Dev nD,
      r.2.mem ((c.tc : Thread nD τ).loc main_v10_0) = (hiddenArr (m ((c : Thread nD τ).loc main_arg0)) (m ((c : Thread nD τ).loc main_arg1)) (m ((c : Thread nD τ).loc main_arg2)) (wT m c) (uT m c) (bias m c))
      ∧ r.2.mem ((c.tc : Thread nD τ).loc main_v10_1) = (cellArr (m ((c : Thread nD τ).loc main_arg0)) (m ((c : Thread nD τ).loc main_arg1)) (m ((c : Thread nD τ).loc main_arg2)) (wT m c) (uT m c) (bias m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final_hidden m c), ((h c).1 7).trans (final_cell m c),
      kept_of_post m (dats m) (A_eq m) r h c⟩)
    (run_main m ρ)

end Cert.KernelIdeal.ArrayValue

end
-- ==== Proof.RefValue.lean ====
/-
  The reference program's two results as the LSTM step of the specification.

  The reference forms the gate pre-activations for the whole batch at once, `x · Wxᵀ + a · Uaᵀ` plus the fused bias
  broadcast down the rows, slices the four gates out of the 4096 columns, and spells each logistic gate as
  `1 / (1 + exp (-pre))`. Read at row `r` and hidden unit `j`, each stage is the corresponding sub-term of the
  specification; the fused transposed weights and the fused bias are the same terms on both sides and are never opened.
-/
import proofs.«109546_j38491496907449_1_alg».proof.Proof.Gen.ReferenceIdeal.Read
import proofs.«109546_j38491496907449_1_alg».proof.Proof.LstmSpec

noncomputable section

namespace Cert.ReferenceIdeal.RefValue

open Cert.ReferenceIdeal Cert.ReferenceIdeal.Gen Cert.ReferenceIdeal.Read Cert.Lstm
open Idealize.ShloMosaic Idealize.ShloMosaic.ValueIdx

variable (x0 x1 x2 : (⟨S8192x1024, .f32⟩ : BufTy).Contents (Elt Ideal))
  (x3 x5 x7 x9 x11 x13 x15 x17 : (⟨S1024x1024, .f32⟩ : BufTy).Contents (Elt Ideal))
  (x4 x6 x8 x10 x12 x14 x16 x18 : (⟨S1024, .f32⟩ : BufTy).Contents (Elt Ideal))

/-- The batched pre-activation at row `r`, gate column `q`: the two matrix products are sums over the 1024 contraction
    positions of that row against column `q` of the fused transposed weights, and the broadcast bias is its entry `q`. -/
theorem pre_at (r : Fin 8192) (q : Fin 4096) :
    val_main_v12 (F := Ideal) x0 x1 x3 x4 x5 x6 x7 x8 x9 x10 x11 x12 x13 x14 x15 x16 x17 x18 (ix2 r q) = gatePre (fun k => x0 (ix2 r k)) (fun k => x1 (ix2 r k)) (val_main_v4 (F := Ideal) x3 x7 x11 x15) (val_main_v6 (F := Ideal) x5 x9 x13 x17) (fun q => (val_main_v9 (F := Ideal) x4 x6 x8 x10 x12 x14 x16 x18) (ix1 q)) q := by
  rw [val_main_v12_apply, val_main_v8_apply, val_main_v5_apply, val_main_v7_apply, val_main_v11_apply, val_main_v10_apply]
  have hl5 : ∀ k, lidx_main_v5 (ix2 r q) k = ix2 r k := fun k => funext fun a => Fin.ext (by
    match a with
    | ⟨0, _⟩ => rfl
    | ⟨1, _⟩ => rfl)
  have hr5 : ∀ k, ridx_main_v5 (ix2 r q) k = ix2 k q := fun k => funext fun a => Fin.ext (by
    match a with
    | ⟨0, _⟩ => rfl
    | ⟨1, _⟩ => rfl)
  have hl7 : ∀ k, lidx_main_v7 (ix2 r q) k = ix2 r k := fun k => funext fun a => Fin.ext (by
    match a with
    | ⟨0, _⟩ => rfl
    | ⟨1, _⟩ => rfl)
  have hr7 : ∀ k, ridx_main_v7 (ix2 r q) k = ix2 k q := fun k => funext fun a => Fin.ext (by
    match a with
    | ⟨0, _⟩ => rfl
    | ⟨1, _⟩ => rfl)
  have hb : idx_main_v10 (idx_main_v11 (ix2 r q)) = ix1 q := funext fun a => Fin.ext (by
    match a with
    | ⟨0, _⟩ => rfl)
  simp only [hl5, hr5, hl7, hr7, hb, Ideal.addf_def]
  rfl

/-- Gate 0 (a logistic gate): the reference spells it `1 / (1 + exp (-pre))` over the slice of columns 0 … 1023. -/
theorem gate0_at (r : Fin 8192) (j : Fin 1024) :
    val_main_v19 (F := Ideal) x0 x1 x3 x4 x5 x6 x7 x8 x9 x10 x11 x12 x13 x14 x15 x16 x17 x18 (ix2 r j) = Ideal.logistic (val_main_v12 (F := Ideal) x0 x1 x3 x4 x5 x6 x7 x8 x9 x10 x11 x12 x13 x14 x15 x16 x17 x18 (ix2 r (gateCol 0 j))) := by
  rw [val_main_v19_apply, val_main_v18_apply, val_main_cst_0_apply, val_main_v17_apply, val_main_v16_apply, val_main_cst_apply,
    val_main_v15_apply, val_main_v14_apply, val_main_v13_apply]
  have hi : idx_main_v13 (ix2 r j) = ix2 r (gateCol 0 j) := funext fun a => Fin.ext (by
    match a with
    | ⟨0, _⟩ => rfl
    | ⟨1, _⟩ => show j.val = 0 * 1024 + j.val; omega)
  rw [hi]
  simp only [Ideal.hostDivf_def, Ideal.ofBits_def, Ideal.addf_def, Ideal.hostUnary_exp_def, Ideal.hostNegf_def, Ideal.negf_def]
  exact logistic_expanded _

/-- Gate 1 (a logistic gate): the reference spells it `1 / (1 + exp (-pre))` over the slice of columns 1024 … 2047. -/
theorem gate1_at (r : Fin 8192) (j : Fin 1024) :
    val_main_v26 (F := Ideal) x0 x1 x3 x4 x5 x6 x7 x8 x9 x10 x11 x12 x13 x14 x15 x16 x17 x18 (ix2 r j) = Ideal.logistic (val_main_v12 (F := Ideal) x0 x1 x3 x4 x5 x6 x7 x8 x9 x10 x11 x12 x13 x14 x15 x16 x17 x18 (ix2 r (gateCol 1 j))) := by
  rw [val_main_v26_apply, val_main_v25_apply, val_main_cst_2_apply, val_main_v24_apply, val_main_v23_apply, val_main_cst_1_apply,
    val_main_v22_apply, val_main_v21_apply, val_main_v20_apply]
  have hi : idx_main_v20 (ix2 r j) = ix2 r (gateCol 1 j) := funext fun a => Fin.ext (by
    match a with
    | ⟨0, _⟩ => rfl
    | ⟨1, _⟩ => show 1024 + j.val = 1 * 1024 + j.val; omega)
  rw [hi]
  simp only [Ideal.hostDivf_def, Ideal.ofBits_def, Ideal.addf_def, Ideal.hostUnary_exp_def, Ideal.hostNegf_def, Ideal.negf_def]
  exact logistic_expanded _

/-- Gate 2 (a logistic gate): the reference spells it `1 / (1 + exp (-pre))` over the slice of columns 2048 … 3071. -/
theorem gate2_at (r : Fin 8192) (j : Fin 1024) :
    val_main_v33 (F := Ideal) x0 x1 x3 x4 x5 x6 x7 x8 x9 x10 x11 x12 x13 x14 x15 x16 x17 x18 (ix2 r j) = Ideal.logistic (val_main_v12 (F := Ideal) x0 x1 x3 x4 x5 x6 x7 x8 x9 x10 x11 x12 x13 x14 x15 x16 x17 x18 (ix2 r (gateCol 2 j))) := by
  rw [val_main_v33_apply, val_main_v32_apply, val_main_cst_4_apply, val_main_v31_apply, val_main_v30_apply, val_main_cst_3_apply,
    val_main_v29_apply, val_main_v28_apply, val_main_v27_apply]
  have hi : idx_main_v27 (ix2 r j) = ix2 r (gateCol 2 j) := funext fun a => Fin.ext (by
    match a with
    | ⟨0, _⟩ => rfl
    | ⟨1, _⟩ => show 2048 + j.val = 2 * 1024 + j.val; omega)
  rw [hi]
  simp only [Ideal.hostDivf_def, Ideal.ofBits_def, Ideal.addf_def, Ideal.hostUnary_exp_def, Ideal.hostNegf_def, Ideal.negf_def]
  exact logistic_expanded _

/-- Gate 3 (the candidate): tanh over the slice of columns 3072 … 4095. -/
theorem gate3_at (r : Fin 8192) (j : Fin 1024) :
    val_main_v35 (F := Ideal) x0 x1 x3 x4 x5 x6 x7 x8 x9 x10 x11 x12 x13 x14 x15 x16 x17 x18 (ix2 r j) = Ideal.tanh (val_main_v12 (F := Ideal) x0 x1 x3 x4 x5 x6 x7 x8 x9 x10 x11 x12 x13 x14 x15 x16 x17 x18 (ix2 r (gateCol 3 j))) := by
  rw [val_main_v35_apply, val_main_v34_apply]
  have hi : idx_main_v34 (ix2 r j) = ix2 r (gateCol 3 j) := funext fun a => Fin.ext (by
    match a with
    | ⟨0, _⟩ => rfl
    | ⟨1, _⟩ => show 3072 + j.val = 3 * 1024 + j.val; omega)
  rw [hi]
  rfl

/-- The reference's new cell state at row `r`, unit `j`. -/
theorem cell_at (r : Fin 8192) (j : Fin 1024) :
    val_main_v38 (F := Ideal) x0 x1 x2 x3 x4 x5 x6 x7 x8 x9 x10 x11 x12 x13 x14 x15 x16 x17 x18 (ix2 r j) = cellNew (fun k => x0 (ix2 r k)) (fun k => x1 (ix2 r k)) (val_main_v4 (F := Ideal) x3 x7 x11 x15) (val_main_v6 (F := Ideal) x5 x9 x13 x17) (fun q => (val_main_v9 (F := Ideal) x4 x6 x8 x10 x12 x14 x16 x18) (ix1 q)) (x2 (ix2 r j)) j := by
  rw [val_main_v38_apply, val_main_v36_apply, val_main_v37_apply, gate0_at, gate1_at, gate3_at, pre_at, pre_at, pre_at]
  rfl

/-- The reference's new hidden state at row `r`, unit `j`. -/
theorem hidden_at (r : Fin 8192) (j : Fin 1024) :
    val_main_v40 (F := Ideal) x0 x1 x2 x3 x4 x5 x6 x7 x8 x9 x10 x11 x12 x13 x14 x15 x16 x17 x18 (ix2 r j) = hiddenNew (fun k => x0 (ix2 r k)) (fun k => x1 (ix2 r k)) (val_main_v4 (F := Ideal) x3 x7 x11 x15) (val_main_v6 (F := Ideal) x5 x9 x13 x17) (fun q => (val_main_v9 (F := Ideal) x4 x6 x8 x10 x12 x14 x16 x18) (ix1 q)) (x2 (ix2 r j)) j := by
  rw [val_main_v40_apply, val_main_v39_apply, gate2_at, cell_at, pre_at]
  rfl

/-- The reference's second result is the specification's new cell state of the batch. -/
theorem cell_eq : val_main_v38 (F := Ideal) x0 x1 x2 x3 x4 x5 x6 x7 x8 x9 x10 x11 x12 x13 x14 x15 x16 x17 x18 = cellArr x0 x1 x2 (val_main_v4 (F := Ideal) x3 x7 x11 x15) (val_main_v6 (F := Ideal) x5 x9 x13 x17) (val_main_v9 (F := Ideal) x4 x6 x8 x10 x12 x14 x16 x18) := by
  funext i
  obtain ⟨r, j, rfl⟩ : ∃ (r : Fin 8192) (j : Fin 1024), i = ix2 r j := ⟨i 0, i 1, eq_ix2 i⟩
  rw [cell_at, cellArr_ix2]

/-- The reference's first result is the specification's new hidden state of the batch. -/
theorem hidden_eq : val_main_v40 (F := Ideal) x0 x1 x2 x3 x4 x5 x6 x7 x8 x9 x10 x11 x12 x13 x14 x15 x16 x17 x18 = hiddenArr x0 x1 x2 (val_main_v4 (F := Ideal) x3 x7 x11 x15) (val_main_v6 (F := Ideal) x5 x9 x13 x17) (val_main_v9 (F := Ideal) x4 x6 x8 x10 x12 x14 x16 x18) := by
  funext i
  obtain ⟨r, j, rfl⟩ : ∃ (r : Fin 8192) (j : Fin 1024), i = ix2 r j := ⟨i 0, i 1, eq_ix2 i⟩
  rw [hidden_at, hiddenArr_ix2]

end Cert.ReferenceIdeal.RefValue

end
-- ==== Proof.lean ====
/-
  One step of an LSTM cell, fused into a single pipelined kernel, against its plain jnp reference.

  Both programs stack the four gates' input weights, recurrent weights and biases, and compute for every batch row the
  4096 gate pre-activations `x · Wxᵀ + a · Uaᵀ + (bx + ba)`, the three logistic gates and the tanh candidate, the new
  cell state `f · c + i · g` and the new hidden state `o · tanh c'`. The kernel does this one tile of 128 rows per grid
  point, its operands narrowed to bf16 on the way into the matrix unit; the reference does it for the whole batch at
  once and spells the logistic function as `1 / (1 + exp (-x))`.

  On the extended reals narrowing is the identity, a matrix product into a zero accumulator and the host's
  `dot_general` are the same sum, and the logistic function IS `1 / (1 + e^(-x))` (at the infinities too), so the two
  programs compute one function with the same grouping of every sum and product: no law of arithmetic, and so no
  finiteness of the inputs, is used.

  * the three frames: the two kernel programs by the pipeline's launch theorem over the body's obligation at a generic grid point
    (`Proof/KernelFrame.lean`, `Proof/KernelIdealFrame.lean`); the reference by its run with the results dropped;
  * `preserves`: the idealization rewrote nothing;
  * `algebraic`: the kernel's two result arrays (`Proof/KernelValue.lean`, over `Proof/KernelPayload.lean`) and the
    reference's (`Proof/RefValue.lean`) are the specification's arrays (`Proof/LstmSpec.lean`) of the arguments and of
    the fused weights and bias, which both programs form by the same host operations.
-/
import proofs.«109546_j38491496907449_1_alg».proof.Defs
import proofs.«109546_j38491496907449_1_alg».proof.Proof.Gen.Kernel
import proofs.«109546_j38491496907449_1_alg».proof.Proof.Gen.KernelIdeal
import proofs.«109546_j38491496907449_1_alg».proof.Proof.Gen.ReferenceIdeal
import proofs.«109546_j38491496907449_1_alg».proof.Proof.Gen.Pre_finite_inputs
import proofs.«109546_j38491496907449_1_alg».proof.Proof.KernelFrame
import proofs.«109546_j38491496907449_1_alg».proof.Proof.KernelIdealFrame
import proofs.«109546_j38491496907449_1_alg».proof.Proof.KernelValue
import proofs.«109546_j38491496907449_1_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Frame.frame m ρ

/-- So does the idealized kernel program. -/
theorem frame_kernelIdeal : Cert.frame_KernelIdeal := fun m ρ _ => Cert.KernelIdeal.Frame.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the nineteen arguments both programs end with the specification's new hidden state as
    first result and its new cell state as second, of the same arrays. -/
theorem algebraic : Cert.algebraic_KernelIdeal_ReferenceIdeal := by
  intro m ρ m' ρ' _ hagree
  refine ⟨fun c => Cert.Lstm.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.ArrayValue.wT m c) (Cert.KernelIdeal.ArrayValue.uT m c) (Cert.KernelIdeal.ArrayValue.bias m c),
    fun c => Cert.Lstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.ArrayValue.wT m c) (Cert.KernelIdeal.ArrayValue.uT m c) (Cert.KernelIdeal.ArrayValue.bias m c),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v40_eq, Cert.ReferenceIdeal.RefValue.hidden_eq, h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v38_eq, Cert.ReferenceIdeal.RefValue.cell_eq, h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
